-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384 : Shape := ⟨1, ![16384]⟩
abbrev S1000x128 : Shape := ⟨2, ![1000, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S1000x128 : S_.BroadcastsInDim S1000x128 (![] : Fin 0 → Fin S1000x128.rank)
  reducesTo_S1000x128_S_d0_1 : S1000x128.ReducesTo [0, 1] S_

variable [Facts]

def fn {F : FTy → Type} [FloatOps F] (main_arg0 : FVec F S16384x128 .f32) (main_arg1 : IVec S16384 32) (main_arg2 : FVec F S1000x128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S1000x128 .f32 := Host.absf main_arg2
  let main_cst_0 : FVec F S_ .f32 := constant S_ .f32 0x7F800000#32
  let main_v5 : FVec F S1000x128 .f32 := broadcastInDim S1000x128 ![] bcast_S_S1000x128 main_cst_0
  let main_v6 : IVec S1000x128 1 := cmpf .olt main_v4 main_v5
  let main_c_1 : IVec S_ 1 := constantI S_ 1 1#1
  let main_v7 : IVec S_ 1 := (fun x v => Host.reduce IntOp.andi x v reducesTo_S1000x128_S_d0_1 h_S_) main_v6 main_c_1
  let main_v8 : IVec S_ 1 := andi main_v3 main_v7
  main_v8
-- ==== Kernel.lean ====
abbrev S16384x128 : Shape := ⟨2, ![16384, 128]⟩
abbrev S16384 : Shape := ⟨1, ![16384]⟩
abbrev S1000x128 : Shape := ⟨2, ![1000, 128]⟩
abbrev S1x16384 : Shape := ⟨2, ![1, 16384]⟩
abbrev S1x1 : Shape := ⟨2, ![1, 1]⟩
abbrev S1024x128 : Shape := ⟨2, ![1024, 128]⟩
abbrev S1x1024 : Shape := ⟨2, ![1, 1024]⟩
abbrev S1024 : Shape := ⟨1, ![1024]⟩
abbrev S1024x1 : Shape := ⟨2, ![1024, 1]⟩
abbrev S1000 : Shape := ⟨1, ![1000]⟩
abbrev S1000x1 : Shape := ⟨2, ![1000, 1]⟩
abbrev S1x1000 : Shape := ⟨2, ![1, 1000]⟩
abbrev S128x1000 : Shape := ⟨2, ![128, 1000]⟩
abbrev S1024x1000 : Shape := ⟨2, ![1024, 1000]⟩
abbrev S1 : Shape := ⟨1, ![1]⟩
abbrev S_ : Shape := ⟨0, ![]⟩

abbrev nBuf : Space → Nat
  | .hbm => 6
  | .vmem => 7
  | .smem => 0
  | _ => 0

abbrev bufTy : (tb : Table) → Fin (tcTables nBuf tb) → BufTy
  | .hbm, ⟨0, _⟩ => ⟨S16384x128, .f32⟩
  | .hbm, ⟨1, _⟩ => ⟨S16384, .i32⟩
  | .hbm, ⟨2, _⟩ => ⟨S1000x128, .f32⟩
  | .hbm, ⟨3, _⟩ => ⟨S1x16384, .i32⟩
  | .hbm, ⟨4, _⟩ => ⟨S1x1, .f32⟩
  | .hbm, ⟨5, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S1000x128, .f32⟩
  | .local _ .vmem, ⟨3, _⟩ => ⟨S1x1024, .i32⟩
  | .local _ .vmem, ⟨4, _⟩ => ⟨S1x1024, .i32⟩
  | .local _ .vmem, ⟨5, _⟩ => ⟨S1x1, .f32⟩
  | .local _ .vmem, ⟨6, _⟩ => ⟨S1x1, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v43 : BitVec 1 := Scalar.cmpi .eq arg0 c15_i32
  let v44 : BitVec 32 := Scalar.extui v43
  let c0_i32_18 : BitVec 32 := 0#32
  let v45 : BitVec 1 := Scalar.cmpi .ne v44 c0_i32_18
  v45

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S16384_S1x16384 : S16384.ShapeCasts S1x16384
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x128_S1024x128_0_0 : ∀ a, (![0, 0] : Fin 2 → Nat) a + S1024x128.size a ≤ S1024x128.size a
  h_S1024x128 : 0 < S1024x128.numel
  inb_S1000x128_S1000x128_0_0 : ∀ a, (![0, 0] : Fin 2 → Nat) a + S1000x128.size a ≤ S1000x128.size a
  h_S1000x128 : 0 < S1000x128.numel
  reduces_S1024x128_S1024 : S1024x128.Reduces [1] S1024
  shapeCasts_S1024_S1024x1 : S1024.ShapeCasts S1024x1
  reduces_S1000x128_S1000 : S1000x128.Reduces [1] S1000
  shapeCasts_S1000_S1000x1 : S1000.ShapeCasts S1000x1
  transposes_S1000x1_p1_0_S1x1000 : S1000x1.Transposes [1, 0] S1x1000
  bitsLt_bf16_f32 : FTy.bits .bf16 < FTy.bits .f32
  transposes_S1000x128_p1_0_S128x1000 : S1000x128.Transposes [1, 0] S128x1000
  broadcasts_S1024x1_S1024x1000 : S1024x1.Broadcasts S1024x1000
  broadcasts_S1x1000_S1024x1000 : S1x1000.Broadcasts S1024x1000
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  transposes_S1x1024_p1_0_S1024x1 : S1x1024.Transposes [1, 0] S1024x1
  iota_S1024x1000_d1_w32 : S1024x1000.Iotas .tc 32 [1]
  reduces_S1024x1000_S1024 : S1024x1000.Reduces [1] S1024
  reduces_S1024x1_S1 : S1024x1.Reduces [0] S1
  shapeCasts_S1_S1x1 : S1.ShapeCasts S1x1
  shapeCasts_S1x1_S_ : S1x1.ShapeCasts S_
  dot_S1024x128_S128x1000_S1024x1000_1_0_0_1_n_n_wf : DotDims.WF S1024x128 S128x1000 S1024x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S16384x128.size a
  hwx0_0 : ∀ i : grid0.Coords, EltTy.bits .f32 = 32 ∨ (Rect.block (s := S16384x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S1000x128.size a
  hwx0_1 : ∀ i : grid0.Coords, EltTy.bits .f32 = 32 ∨ (Rect.block (s := S1000x128) S1000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x16384.size a
  hwx0_2 : ∀ i : grid0.Coords, EltTy.bits .i32 = 32 ∨ (Rect.block (s := S1x16384) S1x1024.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def dot_S1024x128_S128x1000_S1024x1000_1_0_0_1_n_n : DotDims S1024x128 S128x1000 S1024x1000 where
  lhsContracting := [1]
  rhsContracting := [0]
  lhsNonContracting := [0]
  rhsNonContracting := [1]
  lhsBatch := []
  rhsBatch := []
  wf := dot_S1024x128_S128x1000_S1024x1000_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16384x128 : Shape := ⟨2, ![16384, 128]⟩
abbrev S16384 : Shape := ⟨1, ![16384]⟩
abbrev S1000x128 : Shape := ⟨2, ![1000, 128]⟩
abbrev S_ : Shape := ⟨0, ![]⟩
abbrev S1000 : Shape := ⟨1, ![1000]⟩
abbrev S16384x1000 : Shape := ⟨2, ![16384, 1000]⟩
abbrev S16384x1 : Shape := ⟨2, ![16384, 1]⟩
abbrev S1x1000 : Shape := ⟨2, ![1, 1000]⟩

abbrev nBuf : Space → Nat
  | .hbm => 39
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384, .i32⟩
  | .hbm, ⟨2, _⟩ => ⟨S1000x128, .f32⟩
  | .hbm, ⟨3, _⟩ => ⟨S16384x128, .f32⟩
  | .hbm, ⟨4, _⟩ => ⟨S_, .f32⟩
  | .hbm, ⟨5, _⟩ => ⟨S16384, .f32⟩
  | .hbm, ⟨6, _⟩ => ⟨S1000x128, .f32⟩
  | .hbm, ⟨7, _⟩ => ⟨S_, .f32⟩
  | .hbm, ⟨8, _⟩ => ⟨S1000, .f32⟩
  | .hbm, ⟨9, _⟩ => ⟨S16384x1000, .f32⟩
  | .hbm, ⟨10, _⟩ => ⟨S16384x1, .f32⟩
  | .hbm, ⟨11, _⟩ => ⟨S1x1000, .f32⟩
  | .hbm, ⟨12, _⟩ => ⟨S16384x1000, .f32⟩
  | .hbm, ⟨13, _⟩ => ⟨S16384x1000, .f32⟩
  | .hbm, ⟨14, _⟩ => ⟨S16384x1000, .f32⟩
  | .hbm, ⟨15, _⟩ => ⟨S_, .f32⟩
  | .hbm, ⟨16, _⟩ => ⟨S16384x1000, .f32⟩
  | .hbm, ⟨17, _⟩ => ⟨S16384x1000, .f32⟩
  | .hbm, ⟨18, _⟩ => ⟨S16384x1000, .f32⟩
  | .hbm, ⟨19, _⟩ => ⟨S_, .f32⟩
  | .hbm, ⟨20, _⟩ => ⟨S16384x1000, .f32⟩
  | .hbm, ⟨21, _⟩ => ⟨S16384x1000, .f32⟩
  | .hbm, ⟨22, _⟩ => ⟨S_, .f32⟩
  | .hbm, ⟨23, _⟩ => ⟨S16384x1000, .f32⟩
  | .hbm, ⟨24, _⟩ => ⟨S16384x1000, .f32⟩
  | .hbm, ⟨25, _⟩ => ⟨S16384x1, .i32⟩
  | .hbm, ⟨26, _⟩ => ⟨S1000, .i32⟩
  | .hbm, ⟨27, _⟩ => ⟨S1x1000, .i32⟩
  | .hbm, ⟨28, _⟩ => ⟨S16384x1000, .i32⟩
  | .hbm, ⟨29, _⟩ => ⟨S16384x1000, .i32⟩
  | .hbm, ⟨30, _⟩ => ⟨S16384x1000, .i1⟩
  | .hbm, ⟨31, _⟩ => ⟨S_, .f32⟩
  | .hbm, ⟨32, _⟩ => ⟨S_, .f32⟩
  | .hbm, ⟨33, _⟩ => ⟨S16384x1000, .f32⟩
  | .hbm, ⟨34, _⟩ => ⟨S16384x1000, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_call0_cst : Ref sig .tc := ⟨.hbm, 22, rfl⟩
abbrev main_call0_v0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_call1_v0 : Ref sig .tc := ⟨.hbm, 32, rfl⟩
abbrev main_call1_v1 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩

abbrev nD : Nat := 1
abbrev τ : Topo := Topo.v7x

variable {F : FTy → Type} [FloatOps F]

class Facts₀ : Prop where
  reducesTo_S16384x128_S16384_d1 : S16384x128.ReducesTo [1] S16384
  h_S_ : 0 < S_.numel
  reducesTo_S1000x128_S1000_d1 : S1000x128.ReducesTo [1] S1000
  bcast_S16384_S16384x1_0 : S16384.BroadcastsInDim S16384x1 (![0] : Fin 1 → Fin S16384x1.rank)
  bcast_S1000_S1x1000_1 : S1000.BroadcastsInDim S1x1000 (![1] : Fin 1 → Fin S1x1000.rank)
  bcast_S16384x1_S16384x1000_0_1 : S16384x1.BroadcastsInDim S16384x1000 (![0, 1] : Fin 2 → Fin S16384x1000.rank)
  bcast_S1x1000_S16384x1000_0_1 : S1x1000.BroadcastsInDim S16384x1000 (![0, 1] : Fin 2 → Fin S16384x1000.rank)
  bcast_S_S16384x1000 : S_.BroadcastsInDim S16384x1000 (![] : Fin 0 → Fin S16384x1000.rank)
  reducesTo_S16384x1000_S_d0_1 : S16384x1000.ReducesTo [0, 1] S_
  dot_S16384x128_S1000x128_S16384x1000_1_1_0_0_n_n_wf : DotDims.WF S16384x128 S1000x128 S16384x1000 [1] [1] [0] [0] [] []

variable [Facts₀]

def dot_S16384x128_S1000x128_S16384x1000_1_1_0_0_n_n : DotDims S16384x128 S1000x128 S16384x1000 where
  lhsContracting := [1]
  rhsContracting := [1]
  lhsNonContracting := [0]
  rhsNonContracting := [0]
  lhsBatch := []
  rhsBatch := []
  wf := dot_S16384x128_S1000x128_S16384x1000_1_1_0_0_n_n_wf

class Facts : Prop extends Facts₀ where

variable [Facts]
-- ==== Proof.Pieces.lean ====
/-
  What one run of the kernel body leaves behind, case by case, as terms of the body's arithmetic.

  The body keeps a running sum in a 1 x 1 scratch. At the first grid point it stores the zero word there,
  reads it back and stores "read-back + tile sum"; at every later point it stores "previous contents +
  tile sum"; at the last point it also stores "new contents / 16384" into the 1 x 1 output block. Each
  buffer is covered by its last store, so what it holds afterwards is that store's value: the payload
  `k0_pay1` (the sum of its two arguments), over the tile sum `k0_pay4` of the three input blocks, and
  for the output the payload `k0_pay2` (the quotient) of it.
-/
import proofs.«141655_j90142773609061_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The offsets of a store that begins at the buffer's origin. -/
theorem origin : (![0, 0] : Fin 2 → Nat) = fun _ => 0 := funext fun a => by fin_cases a <;> rfl

/-- First point: the scratch is reset to the zero word `k0_pay3`, read back, and left at
    `k0_pay3 + tile sum`. -/
theorem scratch_first (c : Dev nD) (i : grid0.Coords) (arg1 : Memref sig .tc .vmem S1024x128 .f32) (harg1 : arg1.IsWhole) (arg2 : Memref sig .tc .vmem S1000x128 .f32) (harg2 : arg2.IsWhole) (arg3 : Memref sig .tc .vmem S1x1024 .i32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 : Vec F S1024x128 .f32) (x1 : Vec F S1000x128 .f32) (x2 : Vec F S1x1024 .i32) :
    sout0_A_0 c i arg1 harg1 arg2 harg2 arg3 harg3 arg4 harg4 arg5 harg5 hc0 hc1 x0 x1 x2 = k0_pay1 (k0_pay4 x0 x1 x2) (k0_pay3 (F := F)) := by
  unfold sout0_A_0
  rw [View.read_writes_eq_canon _ _ _ (scover0_A_0 c i arg1 harg1 arg2 harg2 arg3 harg3 arg4 harg4 arg5 harg5 hc0 hc1 x0 x1 x2)]
  unfold kernelRun0_A
  dsimp only
  sl_unfold_words
  rw [View.canon_cons_unit_zero (S := S1x1) origin, View.readCov_unit_zero (S := S1x1) _ origin]
  simp only [View.readAt_eq_ld, harg1.read_unread, harg2.read_unread, harg3.read_unread,
    View.ld_unit_zero (S := S1024x128) origin, View.ld_unit_zero (S := S1000x128) origin,
    View.ld_unit_zero (S := S1x1024) origin]

/-- A middle point: the scratch holding `xs0` is left at `xs0 + tile sum`. -/
theorem scratch_middle (c : Dev nD) (i : grid0.Coords) (arg1 : Memref sig .tc .vmem S1024x128 .f32) (harg1 : arg1.IsWhole) (arg2 : Memref sig .tc .vmem S1000x128 .f32) (harg2 : arg2.IsWhole) (arg3 : Memref sig .tc .vmem S1x1024 .i32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 : Vec F S1024x128 .f32) (x1 : Vec F S1000x128 .f32) (x2 : Vec F S1x1024 .i32) (xs0 : Vec F S1x1 .f32) :
    sout0_B_0 c i arg1 harg1 arg2 harg2 arg3 harg3 arg4 harg4 arg5 harg5 hc0 hc1 x0 x1 x2 xs0 = k0_pay1 (k0_pay4 x0 x1 x2) xs0 := by
  unfold sout0_B_0
  rw [View.read_writes_eq_canon _ _ _ (scover0_B_0 c i arg1 harg1 arg2 harg2 arg3 harg3 arg4 harg4 arg5 harg5 hc0 hc1 x0 x1 x2 xs0)]
  unfold kernelRun0_B
  dsimp only
  sl_unfold_words
  rw [View.canon_unit_zero origin]
  simp only [View.readAt_eq_ld, harg1.read_unread, harg2.read_unread, harg3.read_unread, harg5.read_unread,
    View.ld_unit_zero (S := S1024x128) origin, View.ld_unit_zero (S := S1000x128) origin,
    View.ld_unit_zero (S := S1x1024) origin, View.ld_unit_zero (S := S1x1) origin]

/-- The last point: the scratch holding `xs0` is left at `xs0 + tile sum` as well. -/
theorem scratch_last (c : Dev nD) (i : grid0.Coords) (arg1 : Memref sig .tc .vmem S1024x128 .f32) (harg1 : arg1.IsWhole) (arg2 : Memref sig .tc .vmem S1000x128 .f32) (harg2 : arg2.IsWhole) (arg3 : Memref sig .tc .vmem S1x1024 .i32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S1024x128 .f32) (x1 : Vec F S1000x128 .f32) (x2 : Vec F S1x1024 .i32) (xs0 : Vec F S1x1 .f32) :
    sout0_C_0 c i arg1 harg1 arg2 harg2 arg3 harg3 arg4 harg4 arg5 harg5 hc0 hc1 x0 x1 x2 xs0 = k0_pay1 (k0_pay4 x0 x1 x2) xs0 := by
  unfold sout0_C_0
  rw [View.read_writes_eq_canon _ _ _ (scover0_C_0 c i arg1 harg1 arg2 harg2 arg3 harg3 arg4 harg4 arg5 harg5 hc0 hc1 x0 x1 x2 xs0)]
  unfold kernelRun0_C
  dsimp only
  sl_unfold_words
  rw [View.canon_unit_zero origin]
  simp only [View.readAt_eq_ld, harg1.read_unread, harg2.read_unread, harg3.read_unread, harg5.read_unread,
    View.ld_unit_zero (S := S1024x128) origin, View.ld_unit_zero (S := S1000x128) origin,
    View.ld_unit_zero (S := S1x1024) origin, View.ld_unit_zero (S := S1x1) origin]

/-- The last point: the output block is left at the quotient `k0_pay2` of the scratch's new contents. -/
theorem out_last (c : Dev nD) (i : grid0.Coords) (arg1 : Memref sig .tc .vmem S1024x128 .f32) (harg1 : arg1.IsWhole) (arg2 : Memref sig .tc .vmem S1000x128 .f32) (harg2 : arg2.IsWhole) (arg3 : Memref sig .tc .vmem S1x1024 .i32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S1024x128 .f32) (x1 : Vec F S1000x128 .f32) (x2 : Vec F S1x1024 .i32) (xs0 : Vec F S1x1 .f32) :
    out0_C_3 c i arg1 harg1 arg2 harg2 arg3 harg3 arg4 harg4 arg5 harg5 hc0 hc1 x0 x1 x2 xs0 = k0_pay2 (k0_pay1 (k0_pay4 x0 x1 x2) xs0) := by
  unfold out0_C_3
  rw [View.read_writes_eq_canon _ _ _ (cover0_C_3 c i arg1 harg1 arg2 harg2 arg3 harg3 arg4 harg4 arg5 harg5 hc0 hc1 x0 x1 x2 xs0)]
  unfold kernelRun0_C
  dsimp only
  sl_unfold_words
  rw [View.canon_unit_zero origin]
  simp only [View.readCov_unit_zero (S := S1x1) _ origin, View.readAt_eq_ld, harg1.read_unread, harg2.read_unread,
    harg3.read_unread, harg5.read_unread, View.ld_unit_zero (S := S1024x128) origin,
    View.ld_unit_zero (S := S1000x128) origin, View.ld_unit_zero (S := S1x1024) origin,
    View.ld_unit_zero (S := S1x1) origin]

end Cert.KernelIdeal.Pieces

end
-- ==== Proof.Accum.lean ====
/-
  The running sum the kernel carries across its sixteen grid points, in closed form over the extended reals.

  After point `n` the 1 x 1 scratch holds the zero word plus the tile sums of points `0 .. n`, added in
  point order: by induction on the point, from what each case of the body leaves (the piece lemmas). At
  the last point the output block holds that sum divided by 16384.
-/
import proofs.«141655_j90142773609061_1_alg».proof.Proof.Pieces
import Idealize.ShloMosaic.Lib.ValueIdx
import Idealize.ShloMosaic.Lib.Pipeline.Value
import Idealize.ShloMosaic.PureOps.Ideal.Laws

noncomputable section

open scoped BigOperators
open Idealize.ShloMosaic Idealize.ShloMosaic.TcCoe Idealize.SL.Sem Idealize.ShloMosaic.ValueIdx

namespace Cert.KernelIdeal.Accum

open Cert.KernelIdeal Cert.KernelIdeal.Gen

variable (m : (ℓ : Loc nD τ sig) → Buf (Elt Ideal) ℓ)

/-- The three input blocks of point `t`, at their literal types: 1024 sample rows, all 1000 class rows,
    1024 labels in one row. -/
abbrev rows (c : Dev nD) (t : Fin cfg0.N) : Vec Ideal S1024x128 .f32 := iblk m c 0 t
abbrev classes (c : Dev nD) (t : Fin cfg0.N) : Vec Ideal S1000x128 .f32 := iblk m c 1 t
abbrev labels (c : Dev nD) (t : Fin cfg0.N) : Vec Ideal S1x1024 .i32 := iblk m c 2 t

/-- The sum payload at an entry: second argument plus first. -/
theorem pay1_apply (a : FVec Ideal S1x1 .f32) (b : Vec Ideal S1x1 .f32) (y : S1x1.Idx) :
    k0_pay1 (F := Ideal) a b y = b y + a y := by
  unfold k0_pay1
  rw [shapeCast_self]
  rfl

/-- The reset payload at an entry: the zero word. -/
theorem pay3_apply (y : S1x1.Idx) : k0_pay3 (F := Ideal) y = Ideal.ofBits .f32 0x00000000#32 := by
  unfold k0_pay3
  rw [shapeCast_self]
  rfl

/-- The quotient payload at an entry: its argument divided by the word `16384.0`. -/
theorem pay2_apply (a : Vec Ideal S1x1 .f32) (y : S1x1.Idx) :
    k0_pay2 (F := Ideal) a y = Ideal.div (a y) (Ideal.ofBits .f32 0x46800000#32) := by
  unfold k0_pay2
  rfl

/-- The tile sum of point `s` at entry `y` (zero past the grid, so that partial sums range over naturals). -/
def tileVal (c : Dev nD) (s : ℕ) (y : S1x1.Idx) : EReal :=
  if h : s < cfg0.N then k0_pay4 (F := Ideal) (rows m c ⟨s, h⟩) (classes m c ⟨s, h⟩) (labels m c ⟨s, h⟩) y else 0

theorem tileVal_of_lt (c : Dev nD) (t : Fin cfg0.N) (y : S1x1.Idx) :
    tileVal m c t.val y = k0_pay4 (F := Ideal) (rows m c t) (classes m c t) (labels m c t) y := by
  unfold tileVal
  rw [dif_pos t.isLt]

/-- Any point after the first leaves in the scratch what the point before left plus its own tile sum. -/
theorem scratch_step (c : Dev nD) (t : Fin cfg0.N) (h0 : ¬t.val % 16 = 0) (y : S1x1.Idx) :
    (outsAt0 m c t.val t.isLt).2 y
      = (outsAt0 m c (t.val - 1) (Nat.lt_of_le_of_lt (Nat.sub_le _ _) t.isLt)).2 y + tileVal m c t.val y := by
  rw [tileVal_of_lt]
  by_cases h1 : t.val % 16 = 15
  · rw [outsAt0_C m c t h0 h1]
    dsimp only
    rw [Pieces.scratch_last c (grid0.coords t) (ms0_0 t) (hs0_0 t) (ms0_1 t) (hs0_1 t) (ms0_2 t) (hs0_2 t) (ms0_3 t) (hs0_3 t)
      scM0_0 (Memref.isWhole_whole _) (fun h => h0 ((hcond0_0 t).mp h)) ((hcond0_1 t).mpr h1) (iblk m c 0 t) (iblk m c 1 t)
      (iblk m c 2 t) (outsAt0 m c (t.val - 1) (Nat.lt_of_le_of_lt (Nat.sub_le _ _) t.isLt)).2]
    exact pay1_apply _ _ y
  · rw [outsAt0_B m c t h0 h1]
    dsimp only
    rw [Pieces.scratch_middle c (grid0.coords t) (ms0_0 t) (hs0_0 t) (ms0_1 t) (hs0_1 t) (ms0_2 t) (hs0_2 t) (ms0_3 t) (hs0_3 t)
      scM0_0 (Memref.isWhole_whole _) (fun h => h0 ((hcond0_0 t).mp h)) (fun h => h1 ((hcond0_1 t).mp h)) (iblk m c 0 t)
      (iblk m c 1 t) (iblk m c 2 t) (outsAt0 m c (t.val - 1) (Nat.lt_of_le_of_lt (Nat.sub_le _ _) t.isLt)).2]
    exact pay1_apply _ _ y

/-- The first point leaves the zero word plus its tile sum. -/
theorem scratch_zero (c : Dev nD) (h : 0 < cfg0.N) (y : S1x1.Idx) :
    (outsAt0 m c 0 h).2 y = Ideal.ofBits .f32 0x00000000#32 + tileVal m c 0 y := by
  have e := outsAt0_A m c ⟨0, h⟩ rfl (by show ¬(0 : ℕ) % 16 = 15; decide)
  show (outsAt0 m c (⟨0, h⟩ : Fin cfg0.N).val (⟨0, h⟩ : Fin cfg0.N).isLt).2 y = _
  rw [e]
  dsimp only
  rw [Pieces.scratch_first c (grid0.coords ⟨0, h⟩) (ms0_0 ⟨0, h⟩) (hs0_0 ⟨0, h⟩) (ms0_1 ⟨0, h⟩) (hs0_1 ⟨0, h⟩) (ms0_2 ⟨0, h⟩)
    (hs0_2 ⟨0, h⟩) (ms0_3 ⟨0, h⟩) (hs0_3 ⟨0, h⟩) scM0_0 (Memref.isWhole_whole _) ((hcond0_0 ⟨0, h⟩).mpr rfl)
    (fun hh => absurd ((hcond0_1 ⟨0, h⟩).mp hh) (by show ¬(0 : ℕ) % 16 = 15; decide)) (iblk m c 0 ⟨0, h⟩) (iblk m c 1 ⟨0, h⟩) (iblk m c 2 ⟨0, h⟩)]
  rw [pay1_apply, pay3_apply]
  exact congrArg (_ + ·) (tileVal_of_lt m c ⟨0, h⟩ y).symm

/-- After point `n` the scratch holds the zero word plus the tile sums of points `0 .. n`. -/
theorem scratch_sum (c : Dev nD) : ∀ (n : ℕ) (h : n < cfg0.N) (y : S1x1.Idx),
    (outsAt0 m c n h).2 y = Ideal.ofBits .f32 0x00000000#32 + ∑ s ∈ Finset.range (n + 1), tileVal m c s y
  | 0, h, y => by
    rw [scratch_zero m c h y, Finset.sum_range_one]
  | n + 1, h, y => by
    have hN : cfg0.N = 16 := N_0
    have h0 : ¬(⟨n + 1, h⟩ : Fin cfg0.N).val % 16 = 0 := by dsimp only; omega
    have e := scratch_step m c ⟨n + 1, h⟩ h0 y
    have ih := scratch_sum c n (Nat.lt_of_succ_lt h) y
    rw [Finset.sum_range_succ, ← add_assoc, ← ih]
    exact e

/-- At the last point the output block holds the scratch's new contents divided by `16384.0`. -/
theorem out_last (c : Dev nD) (t : Fin cfg0.N) (h1 : t.val % 16 = 15) (y : S1x1.Idx) :
    (outsAt0 m c t.val t.isLt).1 y
      = Ideal.div ((outsAt0 m c t.val t.isLt).2 y) (Ideal.ofBits .f32 0x46800000#32) := by
  have h0 : ¬t.val % 16 = 0 := by omega
  rw [outsAt0_C m c t h0 h1]
  dsimp only
  rw [Pieces.out_last c (grid0.coords t) (ms0_0 t) (hs0_0 t) (ms0_1 t) (hs0_1 t) (ms0_2 t) (hs0_2 t) (ms0_3 t) (hs0_3 t)
      scM0_0 (Memref.isWhole_whole _) (fun h => h0 ((hcond0_0 t).mp h)) ((hcond0_1 t).mpr h1) (iblk m c 0 t) (iblk m c 1 t)
      (iblk m c 2 t) (outsAt0 m c (t.val - 1) (Nat.lt_of_le_of_lt (Nat.sub_le _ _) t.isLt)).2,
    Pieces.scratch_last c (grid0.coords t) (ms0_0 t) (hs0_0 t) (ms0_1 t) (hs0_1 t) (ms0_2 t) (hs0_2 t) (ms0_3 t) (hs0_3 t)
      scM0_0 (Memref.isWhole_whole _) (fun h => h0 ((hcond0_0 t).mp h)) ((hcond0_1 t).mpr h1) (iblk m c 0 t) (iblk m c 1 t)
      (iblk m c 2 t) (outsAt0 m c (t.val - 1) (Nat.lt_of_le_of_lt (Nat.sub_le _ _) t.isLt)).2]
  exact pay2_apply _ y

/-- So at the last point the output block holds (zero word + all sixteen tile sums) / 16384. -/
theorem out_final (c : Dev nD) (t : Fin cfg0.N) (h1 : t.val % 16 = 15) (y : S1x1.Idx) :
    (outsAt0 m c t.val t.isLt).1 y
      = Ideal.div (Ideal.ofBits .f32 0x00000000#32 + ∑ s ∈ Finset.range 16, tileVal m c s y)
          (Ideal.ofBits .f32 0x46800000#32) := by
  have hN : cfg0.N = 16 := N_0
  have ht : t.val = 15 := by have := t.isLt; omega
  rw [out_last m c t h1 y, scratch_sum m c t.val t.isLt y, ht]

end Cert.KernelIdeal.Accum

end
-- ==== Proof.Blocks.lean ====
/-
  The input blocks of a grid point are pieces of the argument arrays.

  Point `t` reads rows `1024 t .. 1024 t + 1023` of the samples, all of the class rows, and the labels
  `1024 t .. 1024 t + 1023` of the row vector the host reshapes the label array into before the call.
  Each block entry is therefore an entry of an argument array as launched.
-/
import proofs.«141655_j90142773609061_1_alg».proof.Proof.Accum
import Idealize.ShloMosaic.Lib.StableHlo.Run

noncomputable section

open Idealize.ShloMosaic Idealize.ShloMosaic.TcCoe Idealize.SL.Sem Idealize.ShloMosaic.ValueIdx

namespace Cert.KernelIdeal.Accum

open Cert.KernelIdeal Cert.KernelIdeal.Gen

variable (m : (ℓ : Loc nD τ sig) → Buf (Elt Ideal) ℓ)

/-- The block indices of the three input windows at point `t`: (t, 0), (0, 0) and (0, t). -/
theorem samples_index : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem classes_index : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem labels_index : ∀ t : Fin cfg0.N, win0_2.index t (0 : Fin 2) = 0 ∧ win0_2.index t (1 : Fin 2) = t.val :=
  (by decide +kernel : ∀ t : Fin grid0.N, win0_2.index t (0 : Fin 2) = 0 ∧ win0_2.index t (1 : Fin 2) = t.val)

/-- Row `r` of the sample block of point `t` is row `1024 t + r` of the sample array. -/
theorem rows_apply (c : Dev nD) (t : Fin cfg0.N) (r : Fin 1024) (k : Fin 128) (b : Fin 16384)
    (hb : b.val = 1024 * t.val + r.val) :
    rows m c t (ix2 r k) = m ((c : Thread nD τ).loc main_arg0) (ix2 b k) := by
  show iblk m c 0 t (ix2 r k) = _
  unfold iblk
  rw [View.read_apply]
  show V m c main_arg0 _ = _
  rw [V_main_arg0]
  refine congrArg _ (funext fun a => Fin.ext ?_)
  match a with
  | ⟨0, _⟩ =>
    show win0_0.index t 0 * 1024 + 1 * r.val = b.val
    rw [(samples_index t).1, hb]; omega
  | ⟨1, _⟩ =>
    show win0_0.index t 1 * 128 + 1 * k.val = k.val
    rw [(samples_index t).2]; omega

/-- The class block of every point is the whole class array. -/
theorem classes_apply (c : Dev nD) (t : Fin cfg0.N) (j : Fin 1000) (k : Fin 128) :
    classes m c t (ix2 j k) = m ((c : Thread nD τ).loc main_arg2) (ix2 j k) := by
  show iblk m c 1 t (ix2 j k) = _
  unfold iblk
  rw [View.read_apply]
  show V m c main_arg2 _ = _
  rw [V_main_arg2]
  refine congrArg _ (funext fun a => Fin.ext ?_)
  match a with
  | ⟨0, _⟩ =>
    show win0_1.index t 0 * 1000 + 1 * j.val = j.val
    rw [(classes_index t).1]; omega
  | ⟨1, _⟩ =>
    show win0_1.index t 1 * 128 + 1 * k.val = k.val
    rw [(classes_index t).2]; omega

/-- The row vector the region finds in place of the labels is the label array reshaped to 1 x 16384. -/
theorem labels_row (c : Dev nD) :
    (V m c main_v0 : S1x16384.Idx → BitVec 32)
      = shapeCast S1x16384 (m ((c : Thread nD τ).loc main_arg1)) shapeCasts_S16384_S1x16384 := by
  dsimp only [V, V0]
  simp only [hostOps0, List.flatten_cons, List.flatten_nil, List.append_nil]
  after_results
  rfl

/-- Label `r` of the label block of point `t` is label `1024 t + r` of the label array. -/
theorem labels_apply (c : Dev nD) (t : Fin cfg0.N) (r : Fin 1024) (b : Fin 16384)
    (hb : b.val = 1024 * t.val + r.val) :
    labels m c t (ix2 0 r) = m ((c : Thread nD τ).loc main_arg1) (ix1 b) := by
  show iblk m c 2 t (ix2 0 r) = _
  unfold iblk
  rw [View.read_apply]
  show (V m c main_v0 : S1x16384.Idx → BitVec 32) _ = _
  rw [labels_row]
  refine shapeCast_apply _ _ _ (ix1 b) ?_
  rw [Shape.rowMajor_val_one, Shape.rowMajor_val_two]
  show b.val = (win0_2.index t 0 * 1 + 1 * 0) * 16384 + (win0_2.index t 1 * 1024 + 1 * r.val)
  rw [(labels_index t).1, (labels_index t).2, hb]; omega

end Cert.KernelIdeal.Accum

end
-- ==== Proof.KernelRun.lean ====
/-
  The kernel program's run, with its result named.

  The 1 x 1 output array is written back once, after the last grid point, and that block is the whole
  array: so the array ends holding what the last point left in the output block, the zero word plus
  the sixteen tile sums, divided by 16384. The one host operation after the call reshapes the 1 x 1
  array to the scalar result, which is therefore that same number; the argument arrays end as
  launched.
-/
import proofs.«141655_j90142773609061_1_alg».proof.Proof.Blocks
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen

variable (m : (ℓ : Loc nD τ sig) → Buf (Elt Ideal) ℓ) (ρ : Dev nD → PrngReg)

/-- The number the kernel computes, as an entry of the 1 x 1 output: (zero word + the sixteen tile sums) / 16384. -/
def quotient (c : Dev nD) (y : S1x1.Idx) : EReal :=
  Ideal.div (Ideal.ofBits .f32 0x00000000#32 + ∑ s ∈ Finset.range 16, tileVal m c s y) (Ideal.ofBits .f32 0x46800000#32)

/-- The contents of the 1 x 1 output array after the run. -/
abbrev outArray (c : Dev nD) : Buf (Elt Ideal) ((c : Thread nD τ).loc main_v1) := fun y => quotient m c y

/-- The last point of the grid. -/
abbrev last : Fin cfg0.N := t0_15

/-- The output window's block sits at the array's origin at the last point, and is 1 x 1. -/
theorem out_origin : (fun a => win0_3.index last a * main_v1.ty.shape.size a) = fun _ => 0 :=
  funext fun a => by fin_cases a <;> decide

/-- The one write-back, after the last point, writes the whole array: the output block there, which holds
    the quotient. -/
theorem flushed_eq (c : Dev nD) (t : Fin cfg0.N) (hf : (cfg0.win 3).flush t = true) :
    (dats m 0 c).flushed 3 t = ((cfg0.win 3).blk t).view.read (Elt Ideal) (outArray m c) := by
  have hN : cfg0.N = 16 := N_0
  have h15 : t.val = 15 := by have := (flush0_3 t).mp hf; have := t.isLt; omega
  obtain rfl : t = last := Fin.ext h15
  have hout : (outsAt0 m c last.val last.isLt).1 = outArray m c :=
    funext fun y => out_final m c last rfl y
  show (cfg0.win 3).cut (grid0.coords last) ((dats m 0 c).after 3 last) = _
  rw [after0_3, hout]
  exact (Memref.read_access_unit_zero (Elt Ideal) main_v1 out_origin
    (fun a => by rw [congrFun out_origin a]; simp) (outArray m c)).symm

/-- Every index of the 1 x 1 array lies in the block written back after the last point. -/
theorem mem_last_block (i : S1x1.Idx) : i ∈ ((cfg0.win 3).blk last).view.set := by
  show i ∈ ((View.whole main_v1).slice (win0_3.rect last)).set
  rw [View.set_slice_whole, Rect.mem_set_unit]
  intro a
  have hi : (i a : Nat) < S1x1.size a := (i a).isLt
  have hs : S1x1.size a = 1 := by fin_cases a <;> rfl
  have h0 : win0_3.index last a * win0_3.size a = 0 := by fin_cases a <;> decide +kernel
  have h1 : win0_3.xsize (grid0.coords last) a = 1 := by fin_cases a <;> decide +kernel
  show win0_3.index last a * win0_3.size a ≤ (i a : Nat)
    ∧ (i a : Nat) < win0_3.index last a * win0_3.size a + win0_3.xsize (grid0.coords last) a
  rw [h0, h1]; omega

/-- So the output array ends holding the quotient. -/
theorem final_out (c : Dev nD) : (dats m 0 c).arrAt 3 cfg0.N = outArray m c :=
  (dats m 0 c).arrAt_eq_of_cover 3 (outArray m c) (flushed_eq m c)
    fun i => ⟨last, (flush0_3 last).mpr rfl, mem_last_block i⟩

/-- The scalar result the host reshapes the output array into. -/
abbrev result (c : Dev nD) : Buf (Elt Ideal) ((c : Thread nD τ).loc main_v2) :=
  shapeCast S_ (outArray m c) shapeCasts_S1x1_S_

/-- After the host operation that follows the call, the result buffer holds the reshaped output array. -/
theorem tail_result (c : Dev nD) :
    Pipeline.afterTail₀ cfgs (dats m) 0 (V0 m) [hostOps1] c main_v2 = result m c := by
  unfold Pipeline.afterTail₀
  show StableHlo.after hostOps1 _ (Proc.devRef .tc main_v2) = _
  after_results
  have e : Pipeline.withArrays (cfgs 0).spec c (V0 m c) (fun w => (dats m 0 c).arrAt w (cfgs 0).N)
      (Proc.devRef .tc main_v1) = outArray m c :=
    (Pipeline.withArrays_arr spec0 launch0.win.arr_inj c _ _ 3).trans (final_out m c)
  rw [e]
  rfl

/-- THE RUN: every weakly fair execution of the kernel program terminates with the scalar result at the
    reshaped quotient and the three argument arrays as launched. -/
theorem run : θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v2 (Pipeline.mem_restRefs_of main_v2 (by decide) (by decide))).trans (tail_result m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c)))⟩)
    (run_main m ρ)

end Cert.KernelIdeal.Accum

end
-- ==== Proof.Spec.lean ====
/-
  The contrastive margin loss as one function of the three argument arrays, over the extended reals.

  For a sample row `b` and a class row `c` the squared distance is expanded as
  `|f_b|^2 + |v_c|^2 - 2 <f_b, v_c>`; the hinge is `max (1 - dist) 0`; a pair whose class is the sample's
  own label contributes the zero word instead. The loss is the zero word plus the sum of all
  16384 x 1000 terms, divided by 16384.

  The term is stated for any number of sample rows, so that the same definition reads a tile of 1024
  rows and the whole batch; `row` places row `r` of tile `t` at `1024 t + r`, and the sum over the
  batch is the sum over the sixteen tiles of the sums over their rows.
-/
import Idealize.ShloMosaic.PureOps.Ideal
import Idealize.ShloMosaic.PureOps.Ideal.Laws
import Idealize.ShloMosaic.Lib.ValueIdx

noncomputable section

open scoped BigOperators

namespace Cert.Hinge

open Idealize.ShloMosaic Idealize.ShloMosaic.ValueIdx

/-- The squared norm of row `b`: the sum of the squares of its 128 entries. -/
def sq {n : Nat} (f : (⟨2, ![n, 128]⟩ : Shape).Idx → EReal) (b : Fin n) : EReal :=
  ∑ k : Fin 128, f (ix2 b k) * f (ix2 b k)

/-- The inner product of sample row `b` with class row `c`. -/
def dot {n : Nat} (f : (⟨2, ![n, 128]⟩ : Shape).Idx → EReal) (v : (⟨2, ![1000, 128]⟩ : Shape).Idx → EReal)
    (b : Fin n) (c : Fin 1000) : EReal :=
  ∑ k : Fin 128, f (ix2 b k) * v (ix2 c k)

/-- The masked hinge term of sample `b` against class `c`: `max (1 - (|f_b|^2 + |v_c|^2 - 2 <f_b, v_c>)) 0`
    unless `c` is the sample's label, and the zero word then. The words `1.0`, `2.0` and `0.0` are kept as
    the patterns both programs print. -/
def term {n : Nat} (f : (⟨2, ![n, 128]⟩ : Shape).Idx → EReal) (lab : Fin n → BitVec 32)
    (v : (⟨2, ![1000, 128]⟩ : Shape).Idx → EReal) (b : Fin n) (c : Fin 1000) : EReal :=
  Scalar.select (IntOp.cmpi .ne (lab b) (BitVec.ofNat 32 c.val))
    (max (Ideal.ofBits .f32 0x3F800000#32
        - ((sq f b + sq v c) - Ideal.ofBits .f32 0x40000000#32 * dot f v b c))
      (Ideal.ofBits .f32 0x00000000#32))
    (Ideal.ofBits .f32 0x00000000#32)

/-- The terms depend on the sample rows only through the entries of row `b` and its label. -/
theorem term_congr {n n' : Nat} (f : (⟨2, ![n, 128]⟩ : Shape).Idx → EReal) (f' : (⟨2, ![n', 128]⟩ : Shape).Idx → EReal)
    (lab : Fin n → BitVec 32) (lab' : Fin n' → BitVec 32) (v : (⟨2, ![1000, 128]⟩ : Shape).Idx → EReal)
    (b : Fin n) (b' : Fin n') (c : Fin 1000)
    (hf : ∀ k : Fin 128, f (ix2 b k) = f' (ix2 b' k)) (hl : lab b = lab' b') :
    term f lab v b c = term f' lab' v b' c := by
  unfold term sq dot
  rw [hl]
  simp only [hf]

/-- The sum of all the terms of a block of `n` sample rows. -/
def blockSum {n : Nat} (f : (⟨2, ![n, 128]⟩ : Shape).Idx → EReal) (lab : Fin n → BitVec 32)
    (v : (⟨2, ![1000, 128]⟩ : Shape).Idx → EReal) : EReal :=
  ∑ b : Fin n, ∑ c : Fin 1000, term f lab v b c

/-- Row `r` of tile `t` in the batch: `1024 t + r`. -/
def row (t : Fin 16) (r : Fin 1024) : Fin 16384 :=
  ⟨1024 * t.val + r.val, by have := t.isLt; have := r.isLt; omega⟩

/-- Tiles and rows inside a tile are the batch's rows, one to one. -/
def rowEquiv : Fin 16 × Fin 1024 ≃ Fin 16384 where
  toFun p := row p.1 p.2
  invFun b := (⟨b.val / 1024, by have := b.isLt; omega⟩, ⟨b.val % 1024, Nat.mod_lt _ (by decide)⟩)
  left_inv p := by
    obtain ⟨t, r⟩ := p
    have ht := t.isLt
    have hr := r.isLt
    refine Prod.ext (Fin.ext ?_) (Fin.ext ?_)
    · show (1024 * t.val + r.val) / 1024 = t.val
      omega
    · show (1024 * t.val + r.val) % 1024 = r.val
      omega
  right_inv b := Fin.ext (by
    show 1024 * (b.val / 1024) + b.val % 1024 = b.val
    omega)

/-- A sum over the batch's rows is the sum over the tiles of the sums over each tile's rows. -/
theorem sum_rows (g : Fin 16384 → EReal) :
    ∑ b : Fin 16384, g b = ∑ t : Fin 16, ∑ r : Fin 1024, g (row t r) := by
  rw [← Equiv.sum_comp rowEquiv g, Fintype.sum_prod_type]
  rfl

/-- The sum of the terms of tile `t`, read off the whole arrays. -/
def tileSum (f : (⟨2, ![16384, 128]⟩ : Shape).Idx → EReal) (lab : Fin 16384 → BitVec 32)
    (v : (⟨2, ![1000, 128]⟩ : Shape).Idx → EReal) (t : Fin 16) : EReal :=
  ∑ r : Fin 1024, ∑ c : Fin 1000, term f lab v (row t r) c

/-- The sixteen tile sums add up to the sum over the batch. -/
theorem sum_tileSum (f : (⟨2, ![16384, 128]⟩ : Shape).Idx → EReal) (lab : Fin 16384 → BitVec 32)
    (v : (⟨2, ![1000, 128]⟩ : Shape).Idx → EReal) :
    ∑ t : Fin 16, tileSum f lab v t = blockSum f lab v := by
  unfold tileSum blockSum
  exact (sum_rows fun b => ∑ c : Fin 1000, term f lab v b c).symm

/-- The loss: the zero word plus the sum of all terms, divided by the batch size `16384.0`. -/
def loss (f : (⟨2, ![16384, 128]⟩ : Shape).Idx → EReal) (lab : Fin 16384 → BitVec 32)
    (v : (⟨2, ![1000, 128]⟩ : Shape).Idx → EReal) : EReal :=
  Ideal.div (Ideal.ofBits .f32 0x00000000#32 + blockSum f lab v) (Ideal.ofBits .f32 0x46800000#32)

end Cert.Hinge

end
-- ==== Proof.TileSum.lean ====
/-
  The value of one tile of the contrastive margin loss kernel, at the extended reals.

  From the tile's 1024 sample rows `f`, the 1000 class rows `v` and the tile's 1024 labels (stored as a
  `1 x 1024` row) the kernel body forms, as whole matrices,
    * the column `|f_r|^2` (a lane sum of squares, cast to a column) and the row `|v_c|^2` (a lane sum, cast to a
      column, transposed),
    * the products `<f_r, v_c>` (the sample matrix times the transposed class matrix, into a zero accumulator),
    * `dist = (|f_r|^2 + |v_c|^2) - 2 <f_r, v_c>`, the hinge `max (1 - dist) 0`, and the mask "label of `r` is not `c`",
      under which the hinge is kept and outside which the zero word stands,
  and then sums the matrix of terms along the lanes, casts the sums to a column, sums the column and casts the result
  to shape `1 x 1`. Here each matrix is read at an entry `(r, c)`: every layout operation reads one entry of its
  operand, every lane or row sum is a finite sum over one coordinate, and the product is the sum over the 128
  contraction positions. The one entry of the result is therefore the double sum `Cert.Hinge.blockSum` of the
  specification, taken over the tile's rows and the 1000 classes.
-/
import proofs.«141655_j90142773609061_1_alg».proof.Proof.Gen.KernelIdeal.Skeleton
import proofs.«141655_j90142773609061_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.TileValue

open Idealize.ShloMosaic Idealize.ShloMosaic.ValueIdx Cert.KernelIdeal Cert.KernelIdeal.Gen

/-- The column of squared norms of the sample rows. -/
def rowSq (x0 : FVec Ideal S1024x128 .f32) : FVec Ideal S1024x1 .f32 :=
  shapeCast S1024x1
    (multiReduction (F := Ideal) .add [1] S1024 (mulf x0 x0) 0x00000000#32 reduces_S1024x128_S1024 (.inl rfl) rfl)
    shapeCasts_S1024_S1024x1

/-- The row of squared norms of the class rows. -/
def classSq (x1 : FVec Ideal S1000x128 .f32) : FVec Ideal S1x1000 .f32 :=
  transpose S1x1000 [1, 0]
    (shapeCast S1000x1
      (multiReduction (F := Ideal) .add [1] S1000 (mulf x1 x1) 0x00000000#32 reduces_S1000x128_S1000 (.inl rfl) rfl)
      shapeCasts_S1000_S1000x1)
    transposes_S1000x1_p1_0_S1x1000

/-- The matrix of inner products of sample rows with class rows. -/
def cross (x0 : FVec Ideal S1024x128 .f32) (x1 : FVec Ideal S1000x128 .f32) : FVec Ideal S1024x1000 .f32 :=
  matmul dot_S1024x128_S128x1000_S1024x1000_1_0_0_1_n_n none
    (truncf .bf16 x0 bitsLt_bf16_f32)
    (transpose S128x1000 [1, 0] (truncf .bf16 x1 bitsLt_bf16_f32) transposes_S1000x128_p1_0_S128x1000)
    (constant (F := Ideal) S1024x1000 .f32 0x00000000#32)

/-- The mask: the sample's label differs from the class number. -/
def mask (x2 : IVec S1x1024 32) : IVec S1024x1000 1 :=
  cmpi .ne
    (broadcastTo S1024x1000
      (transpose S1024x1 [1, 0] (shapeCast S1x1024 x2 shapeCasts_S1x1024_S1x1024) transposes_S1x1024_p1_0_S1024x1)
      broadcasts_S1024x1_S1024x1000)
    (iota .tc S1024x1000 32 [1] iota_S1024x1000_d1_w32)

/-- The matrix of masked hinge terms. -/
def terms (x0 : FVec Ideal S1024x128 .f32) (x1 : FVec Ideal S1000x128 .f32) (x2 : IVec S1x1024 32) :
    FVec Ideal S1024x1000 .f32 :=
  select (mask x2)
    (maximumf
      (subf (broadcast S1024x1000 (Scalar.ofBits (F := Ideal) .f32 0x3F800000#32))
        (subf
          (addf (broadcastTo S1024x1000 (rowSq x0) broadcasts_S1024x1_S1024x1000)
            (broadcastTo S1024x1000 (classSq x1) broadcasts_S1x1000_S1024x1000))
          (mulf (broadcast S1024x1000 (Scalar.ofBits (F := Ideal) .f32 0x40000000#32)) (cross x0 x1))))
      (broadcast S1024x1000 (Scalar.ofBits (F := Ideal) .f32 0x00000000#32)))
    (broadcast S1024x1000 (Scalar.ofBits (F := Ideal) .f32 0x00000000#32))

/-- The tile's value is the sum over the rows of the lane sums of the matrix of terms, with the two casts
    that keep a unit axis. -/
theorem pay4_unfold (x0 : Vec Ideal S1024x128 .f32) (x1 : Vec Ideal S1000x128 .f32) (x2 : Vec Ideal S1x1024 .i32) :
    k0_pay4 (F := Ideal) x0 x1 x2
      = shapeCast S1x1
          (multiReduction (F := Ideal) .add [0] S1
            (shapeCast S1024x1
              (multiReduction (F := Ideal) .add [1] S1024 (terms x0 x1 x2) 0x00000000#32 reduces_S1024x1000_S1024 (.inl rfl) rfl)
              shapeCasts_S1024_S1024x1)
            0x00000000#32 reduces_S1024x1_S1 (.inl rfl) rfl)
          shapeCasts_S1_S1x1 := rfl

/-! ## Layout operations on a column, and the two sums, read at coordinates -/

section Layout
variable {α : Type}

/-- A vector `[a]` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The sum along the lanes of a matrix reads, at row `r`, the sum of that row's entries. -/
theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction (F := Ideal) .add [1] ⟨1, ![a]⟩ src 0x00000000#32 h hφ hacc (ix1 r) = ∑ k : Fin b, src (ix2 r k) := by
  refine (Ideal.multiReduction_add_single src 0x00000000#32 h hφ hacc (ix1 r)).trans ?_
  refine Finset.sum_congr rfl fun k _ => congrArg src ?_
  exact funext fun c => Fin.ext (by match c with | ⟨0, _⟩ => rfl | ⟨1, _⟩ => rfl)

/-- The sum along the rows of a matrix reads, at column `c`, the sum of that column's entries. -/
theorem rowSum_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (c : Fin b) :
    multiReduction (F := Ideal) .add [0] ⟨1, ![b]⟩ src 0x00000000#32 h hφ hacc (ix1 c) = ∑ k : Fin a, src (ix2 k c) := by
  refine (Ideal.multiReduction_add_single src 0x00000000#32 h hφ hacc (ix1 c)).trans ?_
  refine Finset.sum_congr rfl fun k _ => congrArg src ?_
  exact funext fun d => Fin.ext (by match d with | ⟨0, _⟩ => rfl | ⟨1, _⟩ => rfl)

/-! ## The entries of the intermediate matrices -/

/-- An entry of the column of squared norms is the squared norm of that sample row. -/
theorem rowSq_apply (x0 : FVec Ideal S1024x128 .f32) (r : Fin 1024) (u : Fin 1) :
    rowSq x0 (ix2 r u) = Cert.Hinge.sq x0 r := by
  unfold rowSq
  refine (shapeCast_a_a1_apply _ shapeCasts_S1024_S1024x1 r u).trans ?_
  exact laneSum_apply (mulf x0 x0) reduces_S1024x128_S1024 (.inl rfl) rfl r

/-- An entry of the row of squared norms is the squared norm of that class row. -/
theorem classSq_apply (x1 : FVec Ideal S1000x128 .f32) (u : Fin 1) (c : Fin 1000) :
    classSq x1 (ix2 u c) = Cert.Hinge.sq x1 c := by
  unfold classSq
  refine (transpose_ix2_apply _ transposes_S1000x1_p1_0_S1x1000 u c).trans ?_
  refine (shapeCast_a_a1_apply _ shapeCasts_S1000_S1000x1 c u).trans ?_
  exact laneSum_apply (mulf x1 x1) reduces_S1000x128_S1000 (.inl rfl) rfl c

/-! The operand indices of the product at an output index and a contraction position, axis by axis. -/

theorem cross_lhs_0 (i : S1024x1000.Idx) (q : dot_S1024x128_S128x1000_S1024x1000_1_0_0_1_n_n.contr.Idx) :
    (dot_S1024x128_S128x1000_S1024x1000_1_0_0_1_n_n.lhsIdx i q 0).val = (i 0).val := by
  unfold DotDims.lhsIdx
  rw [dif_neg (show ¬(0 : Fin S1024x128.rank) ∈ dot_S1024x128_S128x1000_S1024x1000_1_0_0_1_n_n.lhsBatch by decide), dif_pos (show (0 : Fin S1024x128.rank) ∈ dot_S1024x128_S128x1000_S1024x1000_1_0_0_1_n_n.lhsNonContracting by decide)]
  rfl
theorem cross_lhs_1 (i : S1024x1000.Idx) (q : dot_S1024x128_S128x1000_S1024x1000_1_0_0_1_n_n.contr.Idx) :
    (dot_S1024x128_S128x1000_S1024x1000_1_0_0_1_n_n.lhsIdx i q 1).val = (q ⟨0, by decide⟩).val :=
  dot_S1024x128_S128x1000_S1024x1000_1_0_0_1_n_n.lhsIdx_val_of_single rfl i q
theorem cross_rhs_0 (i : S1024x1000.Idx) (q : dot_S1024x128_S128x1000_S1024x1000_1_0_0_1_n_n.contr.Idx) :
    (dot_S1024x128_S128x1000_S1024x1000_1_0_0_1_n_n.rhsIdx i q 0).val = (q ⟨0, by decide⟩).val :=
  dot_S1024x128_S128x1000_S1024x1000_1_0_0_1_n_n.rhsIdx_val_of_single rfl i q
theorem cross_rhs_1 (i : S1024x1000.Idx) (q : dot_S1024x128_S128x1000_S1024x1000_1_0_0_1_n_n.contr.Idx) :
    (dot_S1024x128_S128x1000_S1024x1000_1_0_0_1_n_n.rhsIdx i q 1).val = (i 1).val := by
  unfold DotDims.rhsIdx
  rw [dif_neg (show ¬(1 : Fin S128x1000.rank) ∈ dot_S1024x128_S128x1000_S1024x1000_1_0_0_1_n_n.rhsBatch by decide), dif_pos (show (1 : Fin S128x1000.rank) ∈ dot_S1024x128_S128x1000_S1024x1000_1_0_0_1_n_n.rhsNonContracting by decide)]
  rfl

/-- An entry of the product is the inner product of the sample row with the class row: the two format changes are
    the identity on extended reals, the accumulator is zero, and the transposed class matrix at `(k, c)` is the
    class matrix at `(c, k)`. -/
theorem cross_apply (x0 : FVec Ideal S1024x128 .f32) (x1 : FVec Ideal S1000x128 .f32) (r : Fin 1024) (c : Fin 1000) :
    cross x0 x1 (ix2 r c) = Cert.Hinge.dot x0 x1 r c := by
  unfold cross Cert.Hinge.dot
  refine (Ideal.matmul_constant_zero_apply dot_S1024x128_S128x1000_S1024x1000_1_0_0_1_n_n none _ _ (ix2 r c)).trans ?_
  rw [← Equiv.sum_comp (contrEquiv1 dot_S1024x128_S128x1000_S1024x1000_1_0_0_1_n_n 128 rfl rfl).symm]
  refine Finset.sum_congr rfl fun k _ => ?_
  have hk := contrEquiv1_symm_val dot_S1024x128_S128x1000_S1024x1000_1_0_0_1_n_n 128 rfl rfl k
  have el : dot_S1024x128_S128x1000_S1024x1000_1_0_0_1_n_n.lhsIdx (ix2 r c) ((contrEquiv1 dot_S1024x128_S128x1000_S1024x1000_1_0_0_1_n_n 128 rfl rfl).symm k) = ix2 r k := funext fun a => Fin.ext (by
    match a with
    | ⟨0, _⟩ => exact cross_lhs_0 _ _
    | ⟨1, _⟩ => exact (cross_lhs_1 _ _).trans hk)
  have er : dot_S1024x128_S128x1000_S1024x1000_1_0_0_1_n_n.rhsIdx (ix2 r c) ((contrEquiv1 dot_S1024x128_S128x1000_S1024x1000_1_0_0_1_n_n 128 rfl rfl).symm k) = ix2 k c := funext fun a => Fin.ext (by
    match a with
    | ⟨0, _⟩ => exact (cross_rhs_0 _ _).trans hk
    | ⟨1, _⟩ => exact cross_rhs_1 _ _)
  rw [el, er, transpose_ix2_apply]
  rfl

/-- An entry of the mask compares the sample's label with the class number. -/
theorem mask_apply (x2 : IVec S1x1024 32) (r : Fin 1024) (c : Fin 1000) :
    mask x2 (ix2 r c) = IntOp.cmpi .ne (x2 (ix2 0 r)) (BitVec.ofNat 32 c.val) := by
  have hl : broadcastTo S1024x1000
      (transpose S1024x1 [1, 0] (shapeCast S1x1024 x2 shapeCasts_S1x1024_S1x1024) transposes_S1x1024_p1_0_S1024x1)
      broadcasts_S1024x1_S1024x1000 (ix2 r c) = x2 (ix2 0 r) := by
    rw [shapeCast_self]
    refine (broadcastTo_a1_ab_apply _ broadcasts_S1024x1_S1024x1000 r c).trans ?_
    exact transpose_ix2_apply x2 transposes_S1x1024_p1_0_S1024x1 r 0
  have hr : iota .tc S1024x1000 32 [1] iota_S1024x1000_d1_w32 (ix2 r c) = BitVec.ofNat 32 c.val :=
    iota_single_apply .tc S1024x1000 32 1 iota_S1024x1000_d1_w32 (ix2 r c)
  unfold mask
  show IntOp.cmpi .ne _ _ = _
  rw [hl, hr]

/-- An entry of the matrix of terms is the masked hinge term of the sample against the class. -/
theorem terms_apply (x0 : FVec Ideal S1024x128 .f32) (x1 : FVec Ideal S1000x128 .f32) (x2 : IVec S1x1024 32)
    (r : Fin 1024) (c : Fin 1000) :
    terms x0 x1 x2 (ix2 r c) = Cert.Hinge.term x0 (fun r : Fin 1024 => x2 (ix2 0 r)) x1 r c := by
  unfold terms Cert.Hinge.term
  show Scalar.select (mask x2 (ix2 r c))
      (max (Ideal.ofBits .f32 0x3F800000#32
          - ((broadcastTo S1024x1000 (rowSq x0) broadcasts_S1024x1_S1024x1000 (ix2 r c)
                + broadcastTo S1024x1000 (classSq x1) broadcasts_S1x1000_S1024x1000 (ix2 r c))
              - Ideal.ofBits .f32 0x40000000#32 * cross x0 x1 (ix2 r c)))
        (Ideal.ofBits .f32 0x00000000#32))
      (Ideal.ofBits .f32 0x00000000#32) = _
  rw [mask_apply, broadcastTo_a1_ab_apply, broadcastTo_1b_ab_apply, rowSq_apply, classSq_apply, cross_apply]

/-! ## The tile's value -/

/-- The kernel body's arithmetic on one tile is the sum of the masked hinge terms of the tile's rows against all classes. -/
theorem pay4_eq (x0 : Vec Ideal S1024x128 .f32) (x1 : Vec Ideal S1000x128 .f32) (x2 : Vec Ideal S1x1024 .i32) (y : S1x1.Idx) :
    k0_pay4 (F := Ideal) x0 x1 x2 y = Cert.Hinge.blockSum x0 (fun r : Fin 1024 => x2 (ix2 0 r)) x1 := by
  obtain ⟨u, v, rfl⟩ : ∃ (u v : Fin 1), y = ix2 u v := ⟨y 0, y 1, eq_ix2 y⟩
  rw [pay4_unfold]
  refine (shapeCast_a_1a_apply _ shapeCasts_S1_S1x1 u v).trans ?_
  refine (rowSum_apply _ reduces_S1024x1_S1 (.inl rfl) rfl v).trans ?_
  unfold Cert.Hinge.blockSum
  refine Finset.sum_congr rfl fun r _ => ?_
  refine (shapeCast_a_a1_apply _ shapeCasts_S1024_S1024x1 r v).trans ?_
  refine (laneSum_apply _ reduces_S1024x1000_S1024 (.inl rfl) rfl r).trans ?_
  exact Finset.sum_congr rfl fun c _ => terms_apply x0 x1 x2 r c

end Cert.KernelIdeal.TileValue

end
-- ==== Proof.Value.lean ====
/-
  The kernel's result is the loss of the specification.

  The tile sum the body computes at point `t` is the specification's block sum over the point's three
  input blocks; those blocks are rows `1024 t ..` of the samples, the whole class array, and labels
  `1024 t ..` of the label array, so it is the specification's tile sum `t` of the argument arrays. The
  sixteen tile sums add up to the sum over the whole batch, and the scalar the host reshapes the 1 x 1
  output into is the zero word plus that sum, divided by 16384: the loss.
-/
import proofs.«141655_j90142773609061_1_alg».proof.Proof.KernelRun
import proofs.«141655_j90142773609061_1_alg».proof.Proof.TileSum

noncomputable section

open scoped BigOperators
open Idealize.ShloMosaic Idealize.ShloMosaic.TcCoe Idealize.SL.Sem Idealize.ShloMosaic.ValueIdx

namespace Cert.KernelIdeal.Accum

open Cert.KernelIdeal Cert.KernelIdeal.Gen

variable (m : (ℓ : Loc nD τ sig) → Buf (Elt Ideal) ℓ)

/-- The label of sample `b`, read off the label array as launched. -/
abbrev labelOf (c : Dev nD) : Fin 16384 → BitVec 32 := fun b => m ((c : Thread nD τ).loc main_arg1) (ix1 b)

/-- The class block of any point is the class array as launched. -/
theorem classes_eq (c : Dev nD) (t : Fin cfg0.N) : classes m c t = m ((c : Thread nD τ).loc main_arg2) :=
  funext fun j => by
    obtain ⟨a, b, rfl⟩ : ∃ (a : Fin 1000) (b : Fin 128), j = ix2 a b := ⟨j 0, j 1, eq_ix2 j⟩
    exact classes_apply m c t a b

/-- The body's tile sum at point `s` is the specification's tile sum `s` of the argument arrays. -/
theorem tileVal_eq (c : Dev nD) (s : ℕ) (hs : s < 16) (y : S1x1.Idx) :
    tileVal m c s y
      = Cert.Hinge.tileSum (m ((c : Thread nD τ).loc main_arg0)) (labelOf m c) (m ((c : Thread nD τ).loc main_arg2)) ⟨s, hs⟩ := by
  have hN : s < cfg0.N := by rw [show cfg0.N = 16 from N_0]; exact hs
  rw [tileVal_of_lt m c ⟨s, hN⟩ y, TileValue.pay4_eq, classes_eq]
  unfold Cert.Hinge.blockSum Cert.Hinge.tileSum
  refine Finset.sum_congr rfl fun r _ => Finset.sum_congr rfl fun j _ => ?_
  exact Cert.Hinge.term_congr _ _ _ _ _ r (Cert.Hinge.row ⟨s, hs⟩ r) j
    (fun k => rows_apply m c ⟨s, hN⟩ r k (Cert.Hinge.row ⟨s, hs⟩ r) rfl)
    (labels_apply m c ⟨s, hN⟩ r (Cert.Hinge.row ⟨s, hs⟩ r) rfl)

/-- The quotient the kernel leaves in its output is the loss. -/
theorem quotient_eq (c : Dev nD) (y : S1x1.Idx) :
    quotient m c y
      = Cert.Hinge.loss (m ((c : Thread nD τ).loc main_arg0)) (labelOf m c) (m ((c : Thread nD τ).loc main_arg2)) := by
  unfold quotient Cert.Hinge.loss
  rw [Finset.sum_range, ← Cert.Hinge.sum_tileSum]
  refine congrArg (fun s => Ideal.div (Ideal.ofBits .f32 0x00000000#32 + s) (Ideal.ofBits .f32 0x46800000#32)) ?_
  exact Finset.sum_congr rfl fun t _ => tileVal_eq m c t.val t.isLt y

/-- The scalar result is the loss of the argument arrays. -/
theorem result_eq (c : Dev nD) :
    result m c
      = fun _ => Cert.Hinge.loss (m ((c : Thread nD τ).loc main_arg0)) (labelOf m c) (m ((c : Thread nD τ).loc main_arg2)) := by
  have h : outArray m c
      = fun _ => Cert.Hinge.loss (m ((c : Thread nD τ).loc main_arg0)) (labelOf m c) (m ((c : Thread nD τ).loc main_arg2)) :=
    funext fun y => quotient_eq m c y
  show shapeCast S_ (outArray m c) shapeCasts_S1x1_S_ = _
  rw [h]
  rfl

end Cert.KernelIdeal.Accum

end
-- ==== Proof.RefValue.lean ====
/-
  The reference program's result, read as the loss of the specification.

  The reference computes, for every sample row `b` and class row `c`, the squared distance in the expanded
  form `|f_b|^2 + |v_c|^2 - 2 <f_b, v_c>` (two row sums of squares, broadcast along the other axis, and one
  contraction over the 128 columns), the hinge `max (1 - dist) 0`, and keeps it where the label of `b` is
  not `c`, putting the zero word elsewhere; it then adds all 16384 x 1000 entries to the zero word and
  divides by `16384.0`.

  Each stage is read at an index. The broadcasts only forget or repeat a coordinate, so at the entry
  `(b, c)` the three float ingredients are the squared norm of row `b`, the squared norm of class row `c`
  and their inner product, and the two integer ingredients are the label of `b` and the number `c`. The
  entry is therefore the specification's masked hinge term, and the sum over the index set of the
  16384 x 1000 array is the double sum over rows and classes.
-/
import proofs.«141655_j90142773609061_1_alg».proof.Proof.Gen.ReferenceIdeal.Read
import proofs.«141655_j90142773609061_1_alg».proof.Proof.Spec
import Idealize.ShloMosaic.Lib.ValueIdx
import Idealize.ShloMosaic.PureOps.Ideal
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Read

/-! ## The composed index maps at an entry `(b, c)` -/

/-- Column `k` of the sample row that the row sum of squares adds up at `b`. -/
theorem idx_v1_eq (b : Fin 16384) (k : Fin 128) : idx_main_v1 (ix1 b) k = ix2 b k :=
  funext fun a => Fin.ext (by match a with | ⟨0, _⟩ => rfl | ⟨1, _⟩ => rfl)

/-- Column `k` of the class row that the row sum of squares adds up at `c`. -/
theorem idx_v3_eq (c : Fin 1000) (k : Fin 128) : idx_main_v3 (ix1 c) k = ix2 c k :=
  funext fun a => Fin.ext (by match a with | ⟨0, _⟩ => rfl | ⟨1, _⟩ => rfl)

/-- The left factor of the contraction at `(b, c)` is column `k` of sample row `b`. -/
theorem lidx_v4_eq (b : Fin 16384) (c : Fin 1000) (k : Fin 128) : lidx_main_v4 (ix2 b c) k = ix2 b k :=
  funext fun a => Fin.ext (by match a with | ⟨0, _⟩ => rfl | ⟨1, _⟩ => rfl)

/-- The right factor of the contraction at `(b, c)` is column `k` of class row `c`. -/
theorem ridx_v4_eq (b : Fin 16384) (c : Fin 1000) (k : Fin 128) : ridx_main_v4 (ix2 b c) k = ix2 c k :=
  funext fun a => Fin.ext (by match a with | ⟨0, _⟩ => rfl | ⟨1, _⟩ => rfl)

/-- The two broadcasts of a per-sample vector, `[16384] → [16384, 1] → [16384, 1000]`, read entry `(b, c)` at `b`. -/
theorem idx_row_eq (b : Fin 16384) (c : Fin 1000) : idx_main_v5 (idx_main_v7 (ix2 b c)) = ix1 b :=
  funext fun a => Fin.ext (by match a with | ⟨0, _⟩ => rfl)

/-- The two broadcasts of a per-class vector, `[1000] → [1, 1000] → [16384, 1000]`, read entry `(b, c)` at `c`. -/
theorem idx_col_eq (b : Fin 16384) (c : Fin 1000) : idx_main_v6 (idx_main_v8 (ix2 b c)) = ix1 c :=
  funext fun a => Fin.ext (by match a with | ⟨0, _⟩ => rfl)

/-- The same two broadcasts on the integer side: the labels are read at `b`. -/
theorem idx_lab_eq (b : Fin 16384) (c : Fin 1000) : idx_main_v16 (idx_main_v19 (ix2 b c)) = ix1 b :=
  funext fun a => Fin.ext (by match a with | ⟨0, _⟩ => rfl)

/-! ## The ingredients of an entry -/

/-- The first row sum: the zero word plus the squares of row `b` is the squared norm of row `b`. -/
theorem rowNorm (x0 : (⟨S16384x128, .f32⟩ : BufTy).Contents (Elt Ideal)) (b : Fin 16384) :
    val_main_v1 (F := Ideal) x0 (ix1 b) = Cert.Hinge.sq x0 b := by
  rw [val_main_v1_apply, val_main_cst_apply, Ideal.ofBits_def, Ideal.ofBits_zero_f32, zero_add]
  unfold Cert.Hinge.sq
  refine Finset.sum_congr rfl fun k _ => ?_
  rw [val_main_v0_apply, idx_v1_eq, Ideal.mulf_def]

/-- The second row sum: the squared norm of class row `c`. -/
theorem classNorm (x2 : (⟨S1000x128, .f32⟩ : BufTy).Contents (Elt Ideal)) (c : Fin 1000) :
    val_main_v3 (F := Ideal) x2 (ix1 c) = Cert.Hinge.sq x2 c := by
  rw [val_main_v3_apply, val_main_cst_0_apply, Ideal.ofBits_def, Ideal.ofBits_zero_f32, zero_add]
  unfold Cert.Hinge.sq
  refine Finset.sum_congr rfl fun k _ => ?_
  rw [val_main_v2_apply, idx_v3_eq, Ideal.mulf_def]

/-- The squared norm of the sample row, broadcast along the classes. -/
theorem rowNorm_bcast (x0 : (⟨S16384x128, .f32⟩ : BufTy).Contents (Elt Ideal)) (b : Fin 16384) (c : Fin 1000) :
    val_main_v7 (F := Ideal) x0 (ix2 b c) = Cert.Hinge.sq x0 b := by
  rw [val_main_v7_apply, val_main_v5_apply, idx_row_eq, rowNorm]

/-- The squared norm of the class row, broadcast along the samples. -/
theorem classNorm_bcast (x2 : (⟨S1000x128, .f32⟩ : BufTy).Contents (Elt Ideal)) (b : Fin 16384) (c : Fin 1000) :
    val_main_v8 (F := Ideal) x2 (ix2 b c) = Cert.Hinge.sq x2 c := by
  rw [val_main_v8_apply, val_main_v6_apply, idx_col_eq, classNorm]

/-- The contraction over the 128 columns at `(b, c)` is the inner product of sample row `b` and class row `c`. -/
theorem cross (x0 : (⟨S16384x128, .f32⟩ : BufTy).Contents (Elt Ideal)) (x2 : (⟨S1000x128, .f32⟩ : BufTy).Contents (Elt Ideal))
    (b : Fin 16384) (c : Fin 1000) :
    val_main_v4 (F := Ideal) x0 x2 (ix2 b c) = Cert.Hinge.dot x0 x2 b c := by
  rw [val_main_v4_apply]
  unfold Cert.Hinge.dot
  refine Finset.sum_congr rfl fun k _ => ?_
  rw [lidx_v4_eq, ridx_v4_eq]

/-- The labels, broadcast along the classes: entry `(b, c)` holds the label of `b`. -/
theorem label_bcast (x1 : (⟨S16384, .i32⟩ : BufTy).Contents (Elt Ideal)) (b : Fin 16384) (c : Fin 1000) :
    val_main_v19 (F := Ideal) x1 (ix2 b c) = x1 (ix1 b) := by
  rw [val_main_v19_apply, val_main_v16_apply, idx_lab_eq]

/-- The class numbers `0, …, 999`, broadcast along the samples: entry `(b, c)` holds the word of `c`. -/
theorem class_bcast (b : Fin 16384) (c : Fin 1000) :
    val_main_v20 (F := Ideal) (ix2 b c) = BitVec.ofNat 32 c.val := by
  rw [val_main_v20_apply, val_main_v18_apply, val_main_v17_apply]

/-! ## An entry is the masked hinge term, and the result is the loss -/

/-- Entry `(b, c)` of the masked hinge array is the specification's term. -/
theorem entry (x0 : (⟨S16384x128, .f32⟩ : BufTy).Contents (Elt Ideal)) (x1 : (⟨S16384, .i32⟩ : BufTy).Contents (Elt Ideal))
    (x2 : (⟨S1000x128, .f32⟩ : BufTy).Contents (Elt Ideal)) (b : Fin 16384) (c : Fin 1000) :
    val_main_v22 (F := Ideal) x0 x1 x2 (ix2 b c)
      = Cert.Hinge.term x0 (fun b : Fin 16384 => x1 (ix1 b)) x2 b c := by
  rw [val_main_v22_apply, val_main_v21_apply, label_bcast, class_bcast,
    val_main_call1_v1_apply, val_main_call1_v0_apply, val_main_cst_3_apply,
    val_main_v15_apply, val_main_call0_v0_apply, val_main_call0_cst_apply,
    val_main_v14_apply, val_main_v13_apply, val_main_cst_2_apply,
    val_main_v12_apply, val_main_v9_apply, rowNorm_bcast, classNorm_bcast,
    val_main_v11_apply, val_main_v10_apply, val_main_cst_1_apply, cross]
  simp only [Ideal.ofBits_def, Ideal.addf_def, Ideal.subf_def, Ideal.mulf_def, Ideal.maximumf_def]
  rfl

/-- The reference's result at its one index is the loss: the zero word plus the sum of all the terms,
    divided by the word `16384.0`. -/
theorem result_eq (x0 : (⟨S16384x128, .f32⟩ : BufTy).Contents (Elt Ideal)) (x1 : (⟨S16384, .i32⟩ : BufTy).Contents (Elt Ideal))
    (x2 : (⟨S1000x128, .f32⟩ : BufTy).Contents (Elt Ideal)) (i : S_.Idx) :
    val_main_v24 (F := Ideal) x0 x1 x2 i = Cert.Hinge.loss x0 (fun b : Fin 16384 => x1 (ix1 b)) x2 := by
  rw [val_main_v24_apply, val_main_v23_apply, val_main_cst_4_apply, val_main_cst_5_apply,
    Ideal.hostDivf_def, Ideal.ofBits_def, Ideal.ofBits_def, sum_idx2]
  unfold Cert.Hinge.loss Cert.Hinge.blockSum
  refine congrArg (fun s => Ideal.div (Ideal.ofBits .f32 0x00000000#32 + s) (Ideal.ofBits .f32 0x46800000#32)) ?_
  exact Finset.sum_congr rfl fun b _ => Finset.sum_congr rfl fun c _ => entry x0 x1 x2 b c

end Cert.ReferenceIdeal.RefValue

end
-- ==== Proof.lean ====
/-
  The contrastive margin loss kernel computes what its reference computes, over the extended reals.

  Both programs take 16384 sample rows and 1000 class rows of 128 entries and one label per sample. For a
  sample `b` and a class `c` the squared distance is expanded as `|f_b|^2 + |v_c|^2 - 2 <f_b, v_c>`, the
  hinge is `max (1 - dist) 0`, and a pair whose class is the sample's own label contributes the zero word;
  the loss is the zero word plus all 16384 x 1000 terms, divided by 16384 (`Cert.Hinge.loss`).

  The reference forms the whole 16384 x 1000 matrix of terms and sums it. The kernel walks the batch in
  sixteen tiles of 1024 rows: at each grid point it sums the tile's 1024 x 1000 terms (lanes first, then
  rows) and adds the sum to a 1 x 1 scratch it reset at the first point; at the last point it divides by
  16384 and writes the quotient out. Over the extended reals addition is commutative and associative, so
  the sixteen tile sums, added in point order onto the zero word, are the sum over the batch in any
  order: no finiteness of the inputs is used for the value, and the labels are only ever compared, so
  they need no range.

  The frames of the two kernel programs are the generated ones; the reference's frame is its generated run
  with the result dropped; the idealization rewrote nothing, so `preserves` is `True`. The value claim
  puts the kernel's run (its scalar result named as the loss of its argument arrays) beside the
  reference's generated run, whose result term is the same loss of arguments that agree.
-/
import proofs.«141655_j90142773609061_1_alg».proof.Defs
import proofs.«141655_j90142773609061_1_alg».proof.Proof.Gen.Kernel
import proofs.«141655_j90142773609061_1_alg».proof.Proof.Gen.Kernel.Skeleton
import proofs.«141655_j90142773609061_1_alg».proof.Proof.Gen.Kernel.Launch
import proofs.«141655_j90142773609061_1_alg».proof.Proof.Gen.Kernel.Points
import proofs.«141655_j90142773609061_1_alg».proof.Proof.Gen.Kernel.Frame
import proofs.«141655_j90142773609061_1_alg».proof.Proof.Gen.KernelIdeal
import proofs.«141655_j90142773609061_1_alg».proof.Proof.Gen.KernelIdeal.Skeleton
import proofs.«141655_j90142773609061_1_alg».proof.Proof.Gen.KernelIdeal.Launch
import proofs.«141655_j90142773609061_1_alg».proof.Proof.Gen.KernelIdeal.Points
import proofs.«141655_j90142773609061_1_alg».proof.Proof.Gen.KernelIdeal.Frame
import proofs.«141655_j90142773609061_1_alg».proof.Proof.Gen.ReferenceIdeal
import proofs.«141655_j90142773609061_1_alg».proof.Proof.Gen.ReferenceIdeal.Run
import proofs.«141655_j90142773609061_1_alg».proof.Proof.Gen.ReferenceIdeal.Read
import proofs.«141655_j90142773609061_1_alg».proof.Proof.Gen.Pre_finite_inputs
import proofs.«141655_j90142773609061_1_alg».proof.Proof.Value
import proofs.«141655_j90142773609061_1_alg».proof.Proof.RefValue
import Idealize.ShloMosaic.Adequacy
import Idealize.ShloMosaic.Init

noncomputable section

namespace Cert.Proof

open Idealize.ShloMosaic Idealize.SL.Sem

/-- The word-level kernel terminates, faults nowhere and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text read over the extended reals: nothing to restate. -/
theorem preserves : Cert.preserves_Kernel_KernelIdeal := trivial

/-- Run from memories that agree on the three arguments, both programs end with the loss of those
    arguments in their scalar result: the kernel by its sixteen accumulated tile sums, the reference by its
    one sum over the batch. -/
theorem algebraic : Cert.algebraic_KernelIdeal_ReferenceIdeal := by
  intro m ρ m' ρ' _ hagree
  refine ⟨fun c => Cert.KernelIdeal.Accum.result m c, Cert.KernelIdeal.Accum.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, (hagree c).1, (hagree c).2.1, (hagree c).2.2]
  show _ = Cert.KernelIdeal.Accum.result m c
  rw [Cert.KernelIdeal.Accum.result_eq]
  funext i
  exact Cert.ReferenceIdeal.RefValue.result_eq _ _ _ i

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
